-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x2048 .f32) (main_arg1 : FVec F S8192x2048 .f32) (main_arg2 : FVec F S8192 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192x2048 : Shape := ⟨2, ![8192, 2048]⟩
abbrev S8192 : Shape := ⟨1, ![8192]⟩
abbrev S1x8192 : Shape := ⟨2, ![1, 8192]⟩
abbrev S8192x8192 : Shape := ⟨2, ![8192, 8192]⟩
abbrev S1024x256 : Shape := ⟨2, ![1024, 256]⟩
abbrev S1x1024 : Shape := ⟨2, ![1, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192, .f32⟩
  | .hbm, ⟨3, _⟩ => ⟨S1x8192, .f32⟩
  | .hbm, ⟨4, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8192_S1x8192 : S8192.ShapeCasts S1x8192
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x2048.size a
  hwx0_0 : ∀ i : grid0.Coords, EltTy.bits .f32 = 32 ∨ (Rect.block (s := S8192x2048) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x2048.size a
  hwx0_1 : ∀ i : grid0.Coords, EltTy.bits .f32 = 32 ∨ (Rect.block (s := S8192x2048) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S8x8 : Shape := ⟨2, ![8, 8]⟩
abbrev S_ : Shape := ⟨0, ![]⟩
abbrev S1024x256 : Shape := ⟨2, ![1024, 256]⟩
abbrev S8x1x8x1 : Shape := ⟨4, ![8, 1, 8, 1]⟩
abbrev S1x1024x1x256 : Shape := ⟨4, ![1, 1024, 1, 256]⟩
abbrev S8x1024x8x256 : Shape := ⟨4, ![8, 1024, 8, 256]⟩
abbrev S2048x8192 : Shape := ⟨2, ![2048, 8192]⟩
abbrev S8192x8192 : Shape := ⟨2, ![8192, 8192]⟩
abbrev S1x8192 : Shape := ⟨2, ![1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S_, .f32⟩
  | .hbm, ⟨11, _⟩ => ⟨S1024x256, .f32⟩
  | .hbm, ⟨12, _⟩ => ⟨S8x1x8x1, .f32⟩
  | .hbm, ⟨13, _⟩ => ⟨S1x1024x1x256, .f32⟩
  | .hbm, ⟨14, _⟩ => ⟨S8x1024x8x256, .f32⟩
  | .hbm, ⟨15, _⟩ => ⟨S8x1024x8x256, .f32⟩
  | .hbm, ⟨16, _⟩ => ⟨S8x1024x8x256, .f32⟩
  | .hbm, ⟨17, _⟩ => ⟨S8192x2048, .f32⟩
  | .hbm, ⟨18, _⟩ => ⟨S8192x2048, .f32⟩
  | .hbm, ⟨19, _⟩ => ⟨S2048x8192, .f32⟩
  | .hbm, ⟨20, _⟩ => ⟨S8192x8192, .f32⟩
  | .hbm, ⟨21, _⟩ => ⟨S1x8192, .f32⟩
  | .hbm, ⟨22, _⟩ => ⟨S8192x8192, .f32⟩
  | .hbm, ⟨23, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S8x8 : S_.BroadcastsInDim S8x8 (![] : Fin 0 → Fin S8x8.rank)
  bcast_S_S1024x256 : S_.BroadcastsInDim S1024x256 (![] : Fin 0 → Fin S1024x256.rank)
  bcast_S8x8_S8x1x8x1_0_2 : S8x8.BroadcastsInDim S8x1x8x1 (![0, 2] : Fin 2 → Fin S8x1x8x1.rank)
  bcast_S1024x256_S1x1024x1x256_1_3 : S1024x256.BroadcastsInDim S1x1024x1x256 (![1, 3] : Fin 2 → Fin S1x1024x1x256.rank)
  bcast_S8x1x8x1_S8x1024x8x256_0_1_2_3 : S8x1x8x1.BroadcastsInDim S8x1024x8x256 (![0, 1, 2, 3] : Fin 4 → Fin S8x1024x8x256.rank)
  bcast_S1x1024x1x256_S8x1024x8x256_0_1_2_3 : S1x1024x1x256.BroadcastsInDim S8x1024x8x256 (![0, 1, 2, 3] : Fin 4 → Fin S8x1024x8x256.rank)
  shapeCasts_S8x1024x8x256_S8192x2048 : S8x1024x8x256.ShapeCasts S8192x2048
  transposes_S8192x2048_S2048x8192_1_0 : S8192x2048.Transposes [1, 0] S2048x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.KernelTile.lean ====
/-
  One grid point's tile, at an index. The body loads a 1024 × 256 block `x0` of `x`, a 1024 × 256 block `x1` of the
  weights and a 1 × 1024 block `x2` of the bias row, and stores `x0 · x1ᵀ + x2` (the changes of float format are
  the identity on the extended reals): entry `(p, q)` of the stored tile is the sum over the 256 contracted
  positions `k` of `x0 (p, k) · x1 (q, k)`, plus `x2 (0, q)`.
-/
import proofs.«176945_j63909113364673_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.TcCoe Idealize.ShloMosaic.ValueIdx
open scoped BigOperators

/-! ## The contraction's operand indices: both operands are contracted along their second axis -/

theorem lhs_axis0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_axis1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_axis0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_axis1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The product of two blocks along their second axes into the zero accumulator, at `(p, q)`. -/
theorem matmul_apply (a b : FVec Ideal S1024x256 .bf16) (p q : Fin 1024) :
    matmul dot_S1024x256_S1024x256_S1024x1024_1_1_0_0_n_n none a b (constant (F := Ideal) S1024x1024 .f32 0x00000000#32) (ix2 p q)
      = ∑ k : Fin 256, a (ix2 p k) * b (ix2 q k) := by
  show FloatOps.matmul dot_S1024x256_S1024x256_S1024x1024_1_1_0_0_n_n none a b (constant (F := Ideal) S1024x1024 .f32 0x00000000#32) (ix2 p q) = _
  rw [Ideal.matmul_constant_zero_apply, ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p q) ((ValueIdx.contrEquiv1 dot_S1024x256_S1024x256_S1024x1024_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S1024x256_S1024x256_S1024x1024_1_1_0_0_n_n.rhsIdx (ix2 p q) ((ValueIdx.contrEquiv1 dot_S1024x256_S1024x256_S1024x1024_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-- The bias row spread over the tile's 1024 rows, at `(p, q)`. -/
theorem bias_apply (x2 : Vec Ideal S1x1024 .f32) (p q : Fin 1024) :
    broadcastTo S1024x1024 (shapeCast S1x1024 x2 shapeCasts_S1x1024_S1x1024) broadcasts_S1x1024_S1024x1024 (ix2 p q)
      = x2 (ix2 (0 : Fin 1) q) := by
  rw [shapeCast_self]
  exact broadcastTo_apply x2 broadcasts_S1x1024_S1024x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

/-- THE TILE AT AN INDEX: the stored value's entry `(p, q)`. -/
theorem pay_apply (x0 x1 : Vec Ideal S1024x256 .f32) (x2 : Vec Ideal S1x1024 .f32) (p q : Fin 1024) :
    k0_pay1 (F := Ideal) x0 x1 x2 (ix2 p q) = (∑ k : Fin 256, x0 (ix2 p k) * x1 (ix2 q k)) + x2 (ix2 (0 : Fin 1) q) := by
  unfold k0_pay1
  show matmul dot_S1024x256_S1024x256_S1024x1024_1_1_0_0_n_n none (truncf .bf16 x0 bitsLt_bf16_f32) (truncf .bf16 x1 bitsLt_bf16_f32)
      (constant (F := Ideal) S1024x1024 .f32 0x00000000#32) (ix2 p q)
    + broadcastTo S1024x1024 (shapeCast S1x1024 x2 shapeCasts_S1x1024_S1x1024) broadcasts_S1x1024_S1024x1024 (ix2 p q) = _
  rw [matmul_apply, bias_apply]
  rfl

end Cert.KernelIdeal.Tile

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.BlockDiagonalSum.lean ====
/-
  The one law of arithmetic behind a block-diagonal mask, on the extended reals. A sum over 2048 terms in which
  term `h` carries the factor `μ h`, where `μ h` is one when `h` lies in block `b` of the eight consecutive
  blocks of 256 indices and zero otherwise, is the sum over the 256 terms of block `b` alone: the sum is
  regrouped block by block, in the blocks other than `b` every term is a product with zero, and in block `b`
  the factor one drops out. It uses only `a * 0 = 0`, `a * 1 = a` and that addition is commutative and
  associative, all of which hold at the infinities too: no finiteness side condition.
-/
import Mathlib.Data.EReal.Basic
import proofs.«176945_j63909113364673_1_alg».proof.Proof.LibSums

namespace Cert.BlockDiagonal

open scoped BigOperators

/-- Position `k` of block `b` (eight blocks of 256) as an index below 2048. -/
def inBlock (b : Fin 8) (k : Fin 256) : Fin 2048 := ⟨256 * b.val + k.val, Cert.Sums.block_index_lt b.isLt k.isLt⟩

theorem inBlock_val (b : Fin 8) (k : Fin 256) : (inBlock b k).val = 256 * b.val + k.val := rfl

/-- A sum whose term `h` is masked by the indicator of block `b` is the sum over block `b`. -/
theorem sum_masked (b : Fin 8) (f g μ : Fin 2048 → EReal)
    (hμ : ∀ h : Fin 2048, μ h = if h.val / 256 = b.val then 1 else 0) :
    ∑ h, f h * (g h * μ h) = ∑ k : Fin 256, f (inBlock b k) * g (inBlock b k) := by
  rw [Cert.Sums.sum_blocks 8 256 (fun h : Fin (8 * 256) => f h * (g h * μ h)), Finset.sum_eq_single b]
  · refine Finset.sum_congr rfl fun k _ => ?_
    have hk := k.isLt
    show f (inBlock b k) * (g (inBlock b k) * μ (inBlock b k)) = _
    rw [hμ, if_pos (by rw [inBlock_val]; omega), mul_one]
  · intro c _ hc
    refine Finset.sum_eq_zero fun k _ => ?_
    have hk := k.isLt
    have hne : c.val ≠ b.val := fun h => hc (Fin.ext h)
    show f (inBlock c k) * (g (inBlock c k) * μ (inBlock c k)) = 0
    rw [hμ, if_neg (by rw [inBlock_val]; omega), mul_zero, mul_zero]
  · intro h; exact absurd (Finset.mem_univ b) h

end Cert.BlockDiagonal
-- ==== Proof.Spec.lean ====
/-
  What both programs compute, as one function of the three argument arrays, index by index, on the extended
  reals. The output has 8192 rows and 8192 columns; column `o` belongs to block `o / 1024` of eight, and entry
  `(r, o)` is the product of row `r` of `x` with row `o` of `w` taken over the 256 hidden positions of that block
  only, plus `bias o`.
-/
import Idealize.ShloMosaic.PureOps.Ideal
import Idealize.ShloMosaic.Lib.ValueIdx
import proofs.«176945_j63909113364673_1_alg».proof.Proof.BlockDiagonalSum

noncomputable section

namespace Cert.BlockLinear

open Idealize.ShloMosaic Idealize.ShloMosaic.ValueIdx Cert.BlockDiagonal
open scoped BigOperators

/-- The block an output column belongs to: columns `1024 b … 1024 b + 1023` form block `b`. -/
def blockOf (o : Fin 8192) : Fin 8 := ⟨o.val / 1024, by have := o.isLt; omega⟩

theorem blockOf_val (o : Fin 8192) : (blockOf o).val = o.val / 1024 := rfl

/-- Entry `(r, o)`: the block's 256 products summed, plus the bias of the column. -/
def entry (x w : FVec Ideal ⟨2, ![8192, 2048]⟩ .f32) (bias : FVec Ideal ⟨1, ![8192]⟩ .f32) (r o : Fin 8192) : EReal :=
  (∑ k : Fin 256, x (ix2 r (inBlock (blockOf o) k)) * w (ix2 o (inBlock (blockOf o) k))) + bias (ix1 o)

/-- The whole output array. -/
def G (x w : FVec Ideal ⟨2, ![8192, 2048]⟩ .f32) (bias : FVec Ideal ⟨1, ![8192]⟩ .f32) : FVec Ideal ⟨2, ![8192, 8192]⟩ .f32 :=
  fun i => entry x w bias ⟨(i 0).val, (i 0).isLt⟩ ⟨(i 1).val, (i 1).isLt⟩

theorem G_apply (x w : FVec Ideal ⟨2, ![8192, 2048]⟩ .f32) (bias : FVec Ideal ⟨1, ![8192]⟩ .f32) (r o : Fin 8192) :
    G x w bias (ix2 r o) = entry x w bias r o := rfl

end Cert.BlockLinear

end
-- ==== Proof.KernelValue.lean ====
/-
  The kernel's result array is `G`. The grid has 8 × 8 points; point `(i, b)` stages rows `1024 i …` and hidden
  columns `256 b …` of `x`, the diagonal block of the weights (rows `1024 b …`, hidden columns `256 b …`), columns
  `1024 b …` of the bias row, and writes back the output block at rows `1024 i …`, columns `1024 b …`. An output
  column `o` of that block has `o / 1024 = b`, so the tile the point stores (KernelTile) is exactly `G` read through
  the block: the contraction runs over the 256 hidden positions of block `o / 1024`. The 64 output blocks cover
  the array, so the array ends at `G` of the argument arrays as launched.
-/
import proofs.«176945_j63909113364673_1_alg».proof.Proof.Gen.KernelIdeal.Value
import proofs.«176945_j63909113364673_1_alg».proof.Proof.KernelTile
import proofs.«176945_j63909113364673_1_alg».proof.Proof.Spec
import Idealize.ShloMosaic.Lib.StableHlo.Run

noncomputable section

namespace Cert.KernelIdeal.Hand

open Cert.KernelIdeal Cert.KernelIdeal.Gen Cert.KernelIdeal.Tile
open Idealize.ShloMosaic Idealize.ShloMosaic.TcCoe Idealize.SL.Sem Idealize.ShloMosaic.ValueIdx Idealize.ShloMosaic.StableHlo
open Idealize.ShloMosaic.Pipeline (Dat)
open Cert.BlockDiagonal Cert.BlockLinear
open scoped BigOperators

/-! ## One point's tile is `G` read through the point's block -/

/-- If the three loaded blocks are the argument arrays read at block row `ti` and block column `tb` (for the
    weights: the diagonal block `tb`), the stored tile at `y` is `G` at the array index of `y` in output block
    `(ti, tb)`. -/
theorem point_eq (X W : FVec Ideal ⟨2, ![8192, 2048]⟩ .f32) (B : FVec Ideal ⟨1, ![8192]⟩ .f32)
    (x0 x1 : Vec Ideal S1024x256 .f32) (x2 : Vec Ideal S1x1024 .f32) (ti tb : ℕ) (hti : ti ≤ 7) (htb : tb ≤ 7)
    (h0 : ∀ (p : Fin 1024) (k : Fin 256) (R : Fin 8192) (H : Fin 2048), R.val = ti * 1024 + p.val → H.val = tb * 256 + k.val →
      x0 (ix2 p k) = X (ix2 R H))
    (h1 : ∀ (q : Fin 1024) (k : Fin 256) (O : Fin 8192) (H : Fin 2048), O.val = tb * 1024 + q.val → H.val = tb * 256 + k.val →
      x1 (ix2 q k) = W (ix2 O H))
    (h2 : ∀ (q : Fin 1024) (O : Fin 8192), O.val = tb * 1024 + q.val → x2 (ix2 (0 : Fin 1) q) = B (ix1 O))
    (y : S1024x1024.Idx) (i : (⟨2, ![8192, 8192]⟩ : Shape).Idx)
    (hi0 : (i 0).val = ti * 1024 + (y 0).val) (hi1 : (i 1).val = tb * 1024 + (y 1).val) :
    k0_pay1 (F := Ideal) x0 x1 x2 y = G X W B i := by
  obtain ⟨p, q, rfl⟩ : ∃ (p q : Fin 1024), y = ix2 p q := ⟨y 0, y 1, eq_ix2 y⟩
  have hp : p.val < 1024 := p.isLt
  have hq : q.val < 1024 := q.isLt
  have hi0' : (i 0).val = ti * 1024 + p.val := hi0
  have hi1' : (i 1).val = tb * 1024 + q.val := hi1
  rw [pay_apply]
  show _ = entry X W B ⟨(i 0).val, (i 0).isLt⟩ ⟨(i 1).val, (i 1).isLt⟩
  unfold entry
  have hblk : ∀ k : Fin 256, (inBlock (blockOf ⟨(i 1).val, (i 1).isLt⟩) k).val = tb * 256 + k.val := by
    intro k
    rw [inBlock_val, blockOf_val]
    show 256 * ((i 1).val / 1024) + k.val = _
    rw [hi1']
    omega
  congr 1
  · refine Finset.sum_congr rfl fun k _ => ?_
    rw [h0 p k ⟨(i 0).val, (i 0).isLt⟩ (inBlock (blockOf ⟨(i 1).val, (i 1).isLt⟩) k) hi0' (hblk k),
      h1 q k ⟨(i 1).val, (i 1).isLt⟩ (inBlock (blockOf ⟨(i 1).val, (i 1).isLt⟩) k) hi1' (hblk k)]
  · exact h2 q ⟨(i 1).val, (i 1).isLt⟩ hi1'

/-! ## The arrays the region finds, and the windows' blocks read at an index -/

variable (m : (ℓ : Loc nD τ sig) → Buf (Elt Ideal) ℓ) (ρ : Dev nD → PrngReg)

theorem hz : (![0, 0] : Fin 2 → Nat) = fun _ => 0 := funext fun a => by fin_cases a <;> rfl

/-- The bias row the region finds is the bias reshaped to one row of 8192. -/
theorem V_main_v0 (c : Dev nD) :
    (V m c main_v0 : S1x8192.Idx → EReal) = shapeCast S1x8192 (m ((c : Thread nD τ).loc main_arg2)) shapeCasts_S8192_S1x8192 := by
  dsimp only [Gen.V, Gen.hostOps0]; after_results; rfl

/-- … so its entry `(0, o)` is `bias o`. -/
theorem biasRow_apply (c : Dev nD) (o : Fin 8192) :
    (V m c main_v0 : S1x8192.Idx → EReal) (ix2 (0 : Fin 1) o) = (m ((c : Thread nD τ).loc main_arg2) : S8192.Idx → EReal) (ix1 o) := by
  rw [V_main_v0]
  exact shapeCast_apply _ shapeCasts_S8192_S1x8192 (ix2 (0 : Fin 1) o) (ix1 o)
    (by rw [Shape.rowMajor_val_one, Shape.rowMajor_val_two]; show o.val = 0 * 8192 + o.val; omega)

/-- The printed index maps over the 64 points: `x` moves with the output block; the weights' block is the diagonal
    one of the output's block column; the bias row's block is that column's; block indices stay below 8. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (1 : Fin 2) ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every output block is some point's. -/
theorem idx_onto : ∀ (q0 q1 : Fin 8), ∃ t : Fin cfg0.N, win0_3.index t = ![q0.val, q1.val] :=
  (by decide +kernel : ∀ (q0 q1 : Fin 8), ∃ t : Fin grid0.N, win0_3.index t = ![q0.val, q1.val])

/-- The block of `x` at point `t`, read at `(p, k)`. -/
theorem xblk_apply (c : Dev nD) (t : Fin cfg0.N) (p : Fin 1024) (k : Fin 256) (R : Fin 8192) (H : Fin 2048)
    (hR : R.val = win0_3.index t (0 : Fin 2) * 1024 + p.val) (hH : H.val = win0_3.index t (1 : Fin 2) * 256 + k.val) :
    (iblk m c 0 t : Vec Ideal S1024x256 .f32) (ix2 p k) = (m ((c : Thread nD τ).loc main_arg0) : S8192x2048.Idx → EReal) (ix2 R H) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = R.val; rw [e0, hR]; omega
  | ⟨1, _⟩ => show win0_0.index t (1 : Fin 2) * 256 + 1 * k.val = H.val; rw [e1, hH]; omega

/-- The weights' block at point `t` — the diagonal block of the output's block column — read at `(q, k)`. -/
theorem wblk_apply (c : Dev nD) (t : Fin cfg0.N) (q : Fin 1024) (k : Fin 256) (O : Fin 8192) (H : Fin 2048)
    (hO : O.val = win0_3.index t (1 : Fin 2) * 1024 + q.val) (hH : H.val = win0_3.index t (1 : Fin 2) * 256 + k.val) :
    (iblk m c 1 t : Vec Ideal S1024x256 .f32) (ix2 q k) = (m ((c : Thread nD τ).loc main_arg1) : S8192x2048.Idx → EReal) (ix2 O H) := by
  obtain ⟨-, -, e2, e3, -⟩ := idx_facts t
  unfold iblk
  rw [View.read_apply]
  show V m c main_arg1 _ = _
  rw [V_main_arg1]
  congr 1
  funext a
  apply Fin.ext
  match a with
  | ⟨0, _⟩ => show win0_1.index t (0 : Fin 2) * 1024 + 1 * q.val = O.val; rw [e2, hO]; omega
  | ⟨1, _⟩ => show win0_1.index t (1 : Fin 2) * 256 + 1 * k.val = H.val; rw [e3, hH]; omega

/-- The bias row's block at point `t`, read at `(0, q)`. -/
theorem bblk_apply (c : Dev nD) (t : Fin cfg0.N) (q : Fin 1024) (O : Fin 8192)
    (hO : O.val = win0_3.index t (1 : Fin 2) * 1024 + q.val) :
    (iblk m c 2 t : Vec Ideal S1x1024 .f32) (ix2 (0 : Fin 1) q) = (m ((c : Thread nD τ).loc main_arg2) : S8192.Idx → EReal) (ix1 O) := by
  obtain ⟨-, -, -, -, e4, e5, -⟩ := idx_facts t
  rw [← biasRow_apply m c O]
  unfold iblk
  rw [View.read_apply]
  show V m c main_v0 _ = _
  congr 1
  funext a
  apply Fin.ext
  match a with
  | ⟨0, _⟩ => show win0_2.index t (0 : Fin 2) * 1 + 1 * 0 = 0; rw [e4]
  | ⟨1, _⟩ => show win0_2.index t (1 : Fin 2) * 1024 + 1 * q.val = O.val; rw [e5, hO]; omega

/-! ## From the blocks to the array -/

/-- The result: `G` of the argument arrays as launched. -/
abbrev result (c : Dev nD) : Buf (Elt Ideal) ((c : Thread nD τ).loc main_v1) :=
  G (m ((c : Thread nD τ).loc main_arg0)) (m ((c : Thread nD τ).loc main_arg1)) (m ((c : Thread nD τ).loc main_arg2))

/-- What point `t` writes back is block `t` of `result`. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz]
  simp only [View.ld_unit_zero (S := S1024x256) hz, View.ld_unit_zero (S := S1x1024) hz]
  obtain ⟨-, -, -, -, -, -, b0, b1⟩ := idx_facts t
  funext j
  show k0_pay1 (F := Ideal) (iblk m c 0 t) (iblk m c 1 t) (iblk m c 2 t) j = result m c (((cfg0.win 3).blk t).view.emb j)
  refine point_eq (m ((c : Thread nD τ).loc main_arg0)) (m ((c : Thread nD τ).loc main_arg1)) (m ((c : Thread nD τ).loc main_arg2))
    (iblk m c 0 t) (iblk m c 1 t) (iblk m c 2 t) (win0_3.index t (0 : Fin 2)) (win0_3.index t (1 : Fin 2)) b0 b1
    (fun p k R H hR hH => xblk_apply m c t p k R H hR hH) (fun q k O H hO hH => wblk_apply m c t q k O H hO hH)
    (fun q O hO => bblk_apply m c t q O hO) j (((cfg0.win 3).blk t).view.emb j) ?_ ?_
  · show win0_3.index t (0 : Fin 2) * 1024 + 1 * (j 0).val = _; omega
  · show win0_3.index t (1 : Fin 2) * 1024 + 1 * (j 1).val = _; omega

/-- An index of the output array is in point `t`'s block iff each coordinate is in the block's range on its axis. -/
theorem mem_blk (t : Fin cfg0.N) (i : S8192x8192.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- The 64 blocks cover the output array: entry `(r, o)` is in the block of the point with block row `r / 1024`
    and block column `o / 1024`. -/
theorem cover (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE ARRAY after the run is `result`. -/
theorem final (c : Dev nD) : (dats m 0 c).arrAt 3 cfg0.N = result m c :=
  (dats m 0 c).arrAt_eq_of_cover 3 (result m c) (fun t _ => flushed_eq m c t) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩)
    (Cert.KernelIdeal.Value.run_blocks m ρ)

end Cert.KernelIdeal.Hand

end
-- ==== Proof.RefValue.lean ====
/-
  The reference's result is `G`. Its mask — the Kronecker product of the 8 × 8 identity with a 1024 × 256 block of
  ones, reshaped to 8192 × 2048 — read at `(o, h)` is one when `o / 1024 = h / 256` and zero otherwise; the weights
  are multiplied by it, transposed, and contracted with `x` over all 2048 hidden positions. By the block-diagonal
  sum law only the 256 positions of block `o / 1024` remain, which is `G`.
-/
import proofs.«176945_j63909113364673_1_alg».proof.Proof.Gen.ReferenceIdeal.Read
import proofs.«176945_j63909113364673_1_alg».proof.Proof.Spec
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx Cert.BlockDiagonal Cert.BlockLinear
open scoped BigOperators

/-- Words of two small numbers are equal exactly when the numbers are. -/
theorem ofNat_eq_iff (a c : ℕ) (ha : a < 8) (hc : c < 8) : BitVec.ofNat 32 a = BitVec.ofNat 32 c ↔ a = c := by
  constructor
  · intro h
    have := congrArg BitVec.toNat h
    simp only [BitVec.toNat_ofNat] at this
    omega
  · rintro rfl; rfl

/-- The identity matrix's entry `(a, c)` as the reference builds it (row number compared with column number, the
    truth value converted to a float) is one on the diagonal and zero off it. -/
theorem eye_apply (a c : ℕ) (ha : a < 8) (hc : c < 8) :
    FloatOps.uitofp (F := Ideal) .f32 (IntOp.cmpi .eq (IntOp.addi (BitVec.ofNat 32 a) 0#32) (BitVec.ofNat 32 c))
      = if a = c then (1 : EReal) else 0 := by
  have h0 : IntOp.addi (BitVec.ofNat 32 a) 0#32 = BitVec.ofNat 32 a := by
    show BitVec.ofNat 32 a + 0#32 = _
    exact BitVec.add_zero _
  rw [h0]
  show (((IntOp.cmpi .eq (BitVec.ofNat 32 a) (BitVec.ofNat 32 c)).toNat : ℝ) : EReal) = _
  by_cases h : a = c
  · rw [if_pos h, StableHlo.Predicate.cmpi_eq_iff.mpr ((ofNat_eq_iff a c ha hc).mpr h)]
    simp
  · rw [if_neg h]
    have hne : IntOp.cmpi .eq (BitVec.ofNat 32 a) (BitVec.ofNat 32 c) ≠ 1#1 := fun e =>
      h ((ofNat_eq_iff a c ha hc).mp (StableHlo.Predicate.cmpi_eq_iff.mp e))
    have hz : IntOp.cmpi .eq (BitVec.ofNat 32 a) (BitVec.ofNat 32 c) = 0#1 := by
      generalize IntOp.cmpi .eq (BitVec.ofNat 32 a) (BitVec.ofNat 32 c) = b at hne ⊢
      revert hne; revert b; decide
    rw [hz]
    simp

/-- The mask at `(o, h)`: one when the output block of `o` is the hidden block of `h`, zero otherwise. -/
theorem mask_apply (j : S8192x2048.Idx) :
    val_main_v7 (F := Ideal) j = if (j 1).val / 256 = (j 0).val / 1024 then (1 : EReal) else 0 := by
  have h0 : (j 0).val < 8192 := (j 0).isLt
  have h1 : (j 1).val < 2048 := (j 1).isLt
  rw [val_main_v7_apply, val_main_call0_v4_apply, val_main_call0_v2_apply, val_main_call0_v0_apply, val_main_v5_apply,
    val_main_v4_apply, val_main_v3_apply, val_main_v0_apply, val_main_v1_apply, val_main_v2_apply, val_main_c_apply,
    val_main_call0_v3_apply, val_main_call0_v1_apply, val_main_v6_apply, val_main_cst_apply]
  show FloatOps.mulf (FloatOps.uitofp (F := Ideal) .f32 (IntOp.cmpi .eq (IntOp.addi (BitVec.ofNat 32 (((j 0).val * 2048 + (j 1).val) / 2097152)) 0#32)
      (BitVec.ofNat 32 (((j 0).val * 2048 + (j 1).val) / 256 % 8)))) (Ideal.ofBits .f32 0x3F800000#32) = _
  have hone : Ideal.ofBits .f32 0x3F800000#32 = 1 := IdealRules.sign_bit.ideal_onePat .f32
  rw [eye_apply _ _ (by omega) (by omega), hone]
  show (if _ then (1 : EReal) else 0) * 1 = _
  rw [mul_one]
  have e1 : ((j 0).val * 2048 + (j 1).val) / 2097152 = (j 0).val / 1024 := by
    rw [show (2097152 : ℕ) = 2048 * 1024 from rfl, ← Nat.div_div_eq_div_mul]
    congr 1
    omega
  have e2 : ((j 0).val * 2048 + (j 1).val) / 256 = 8 * (j 0).val + (j 1).val / 256 := by omega
  have e3 : ((j 0).val * 2048 + (j 1).val) / 256 % 8 = (j 1).val / 256 := by rw [e2]; omega
  rw [e1, e3]
  exact if_congr eq_comm rfl rfl

/-- THE REFERENCE'S RESULT IS `G`: at `(r, o)` the contraction over all 2048 hidden positions of `x r h` with the
    masked weight `w o h · mask o h` keeps only block `o / 1024`, and the bias of column `o` is added. -/
theorem result_eq (x w : FVec Ideal S8192x2048 .f32) (bias : FVec Ideal S8192 .f32) :
    val_main_v13 (F := Ideal) x w bias = G x w bias := by
  funext i
  obtain ⟨r, o, rfl⟩ : ∃ (r o : Fin 8192), i = ix2 r o := ⟨i 0, i 1, eq_ix2 i⟩
  rw [val_main_v13_apply, val_main_v10_apply, val_main_v12_apply, val_main_v11_apply, G_apply]
  show (∑ k : Fin 2048, x (lidx_main_v10 (ix2 r o) k) * val_main_v9 (F := Ideal) w (ridx_main_v10 (ix2 r o) k)) + _ = _
  unfold entry
  congr 1
  · have hterm : ∀ k : Fin 2048, x (lidx_main_v10 (ix2 r o) k) * val_main_v9 (F := Ideal) w (ridx_main_v10 (ix2 r o) k)
        = x (ix2 r k) * (w (ix2 o k) * val_main_v7 (F := Ideal) (ix2 o k)) := by
      intro k
      have el : lidx_main_v10 (ix2 r o) k = ix2 r k := funext fun a => Fin.ext (by match a with | ⟨0, _⟩ => rfl | ⟨1, _⟩ => rfl)
      have er : idx_main_v9 (ridx_main_v10 (ix2 r o) k) = ix2 o k := funext fun a => Fin.ext (by match a with | ⟨0, _⟩ => rfl | ⟨1, _⟩ => rfl)
      rw [val_main_v9_apply, val_main_v8_apply, el, er]
      rfl
    rw [Finset.sum_congr rfl fun k _ => hterm k]
    exact sum_masked (blockOf o) (fun h => x (ix2 r h)) (fun h => w (ix2 o h)) (fun h => val_main_v7 (F := Ideal) (ix2 o h))
      (fun h => by rw [mask_apply]; rfl)
  · exact congrArg bias (funext fun a => Fin.ext (by match a with | ⟨0, _⟩ => rfl))

end Cert.ReferenceIdeal.RefValue

end
-- ==== Proof.lean ====
/-
  A block-diagonal linear layer. The reference multiplies the 8192 × 2048 weights by a mask — the Kronecker product
  of the 8 × 8 identity with a 1024 × 256 block of ones — and computes `x · (w ∘ mask)ᵀ + bias` with one contraction
  over all 2048 hidden positions. The kernel never forms the mask: on an 8 × 8 grid, point `(i, b)` multiplies rows
  `1024 i …` of `x`, restricted to hidden block `b`, with the diagonal block `b` of the weights, adds the bias and
  writes output block `(i, b)`; its two changes of float format are the identity on the extended reals.

  Both results are the same function `G` of the arguments (Proof/Spec.lean): entry `(r, o)` is the sum over the 256
  hidden positions `k` of block `o / 1024` of `x (r, k) · w (o, k)`, plus `bias o`.
  * The kernel's side (Proof/KernelTile.lean, Proof/KernelValue.lean): one point's stored tile at an index, the three
    windows' blocks read off the argument arrays, the 64 output blocks covering the array.
  * The reference's side (Proof/RefValue.lean): the mask at `(o, h)` is one when `o / 1024 = h / 256` and zero
    otherwise, and a sum of 2048 terms masked by the indicator of one block of 256 is the sum over that block
    (Proof/BlockDiagonalSum.lean, over the regrouping of a sum into blocks of Proof/LibSums.lean). That law needs only
    `a · 0 = 0`, `a · 1 = a` and the commutative monoid of addition, so the precondition is never opened.
  The frames of the two kernel programs are the generated ones, the reference's frame is its generated run, and the
  idealization rewrote nothing.
-/
import proofs.«176945_j63909113364673_1_alg».proof.Defs
import proofs.«176945_j63909113364673_1_alg».proof.Proof.Gen.Kernel
import proofs.«176945_j63909113364673_1_alg».proof.Proof.Gen.Kernel.Skeleton
import proofs.«176945_j63909113364673_1_alg».proof.Proof.Gen.Kernel.Launch
import proofs.«176945_j63909113364673_1_alg».proof.Proof.Gen.Kernel.Points
import proofs.«176945_j63909113364673_1_alg».proof.Proof.Gen.Kernel.Frame
import proofs.«176945_j63909113364673_1_alg».proof.Proof.Gen.KernelIdeal
import proofs.«176945_j63909113364673_1_alg».proof.Proof.Gen.KernelIdeal.Skeleton
import proofs.«176945_j63909113364673_1_alg».proof.Proof.Gen.KernelIdeal.Launch
import proofs.«176945_j63909113364673_1_alg».proof.Proof.Gen.KernelIdeal.Points
import proofs.«176945_j63909113364673_1_alg».proof.Proof.Gen.KernelIdeal.Frame
import proofs.«176945_j63909113364673_1_alg».proof.Proof.Gen.KernelIdeal.Value
import proofs.«176945_j63909113364673_1_alg».proof.Proof.Gen.ReferenceIdeal
import proofs.«176945_j63909113364673_1_alg».proof.Proof.Gen.ReferenceIdeal.Run
import proofs.«176945_j63909113364673_1_alg».proof.Proof.Gen.ReferenceIdeal.Read
import proofs.«176945_j63909113364673_1_alg».proof.Proof.Gen.Pre_finite_inputs
import proofs.«176945_j63909113364673_1_alg».proof.Proof.KernelValue
import proofs.«176945_j63909113364673_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end at `G` of their arguments, and the arguments agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v13 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
